-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S2048x2048 .f32) (main_arg3 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S8192x2048 : Shape := ⟨2, ![8192, 2048]⟩
abbrev S2048x2048 : Shape := ⟨2, ![2048, 2048]⟩
abbrev S_ : Shape := ⟨0, ![]⟩
abbrev S512x512 : Shape := ⟨2, ![512, 512]⟩

abbrev nBuf : Space → Nat
  | .hbm => 94
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .i1⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048x2048, .f32⟩
  | .hbm, ⟨65, _⟩ => ⟨S2048x2048, .i1⟩
  | .hbm, ⟨66, _⟩ => ⟨S_, .f32⟩
  | .hbm, ⟨67, _⟩ => ⟨S_, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .i1⟩
  | .hbm, ⟨75, _⟩ => ⟨S_, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S8192x2048, .f32⟩
  | .hbm, ⟨93, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_cst_6 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_v14 : Ref sig .tc := ⟨.hbm, 28, rfl⟩
abbrev main_cst_7 : Ref sig .tc := ⟨.hbm, 29, rfl⟩
abbrev main_v15 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev main_v18 : Ref sig .tc := ⟨.hbm, 34, rfl⟩
abbrev main_call2_v0 : Ref sig .tc := ⟨.hbm, 35, rfl⟩
abbrev main_v19 : Ref sig .tc := ⟨.hbm, 36, rfl⟩
abbrev main_cst_9 : Ref sig .tc := ⟨.hbm, 37, rfl⟩
abbrev main_cst_10 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_11 : Ref sig .tc := ⟨.hbm, 48, rfl⟩
abbrev main_v24 : Ref sig .tc := ⟨.hbm, 49, rfl⟩
abbrev main_cst_12 : Ref sig .tc := ⟨.hbm, 50, rfl⟩
abbrev main_v25 : Ref sig .tc := ⟨.hbm, 51, rfl⟩
abbrev main_cst_13 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_14 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_15 : Ref sig .tc := ⟨.hbm, 60, rfl⟩
abbrev main_v32 : Ref sig .tc := ⟨.hbm, 61, rfl⟩
abbrev main_v33 : Ref sig .tc := ⟨.hbm, 62, rfl⟩
abbrev main_cst_16 : Ref sig .tc := ⟨.hbm, 63, rfl⟩
abbrev main_v34 : Ref sig .tc := ⟨.hbm, 64, rfl⟩
abbrev main_v35 : Ref sig .tc := ⟨.hbm, 65, rfl⟩
abbrev main_cst_17 : Ref sig .tc := ⟨.hbm, 66, rfl⟩
abbrev main_cst_18 : Ref sig .tc := ⟨.hbm, 67, rfl⟩
abbrev main_call5_v0 : Ref sig .tc := ⟨.hbm, 68, rfl⟩
abbrev main_call5_v1 : Ref sig .tc := ⟨.hbm, 69, rfl⟩
abbrev main_v36 : Ref sig .tc := ⟨.hbm, 70, rfl⟩
abbrev main_v37 : Ref sig .tc := ⟨.hbm, 71, rfl⟩
abbrev main_cst_19 : Ref sig .tc := ⟨.hbm, 72, rfl⟩
abbrev main_v38 : Ref sig .tc := ⟨.hbm, 73, rfl⟩
abbrev main_v39 : Ref sig .tc := ⟨.hbm, 74, rfl⟩
abbrev main_cst_20 : Ref sig .tc := ⟨.hbm, 75, rfl⟩
abbrev main_v40 : Ref sig .tc := ⟨.hbm, 76, rfl⟩
abbrev main_v41 : Ref sig .tc := ⟨.hbm, 77, rfl⟩
abbrev main_call6_v0 : Ref sig .tc := ⟨.hbm, 78, rfl⟩
abbrev main_v42 : Ref sig .tc := ⟨.hbm, 79, rfl⟩
abbrev main_cst_21 : Ref sig .tc := ⟨.hbm, 80, rfl⟩
abbrev main_cst_22 : Ref sig .tc := ⟨.hbm, 81, rfl⟩
abbrev main_call7_v0 : Ref sig .tc := ⟨.hbm, 82, rfl⟩
abbrev main_call7_v1 : Ref sig .tc := ⟨.hbm, 83, rfl⟩
abbrev main_call7_v2 : Ref sig .tc := ⟨.hbm, 84, rfl⟩
abbrev main_call7_v3 : Ref sig .tc := ⟨.hbm, 85, rfl⟩
abbrev main_call7_v4 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48_0 : Ref sig .tc := ⟨.hbm, 92, rfl⟩
abbrev main_v48_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_19 : BitVec 32 := 0#32
  let v31 : BitVec 1 := Scalar.cmpi .ne v30 c0_i32_19
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x2048.size a
  hwx0_0 : ∀ i : grid0.Coords, EltTy.bits .f32 = 32 ∨ (Rect.block (s := S8192x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x2048.size a
  hwx0_1 : ∀ i : grid0.Coords, EltTy.bits .f32 = 32 ∨ (Rect.block (s := S8192x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x2048.size a
  hwx0_3 : ∀ i : grid0.Coords, EltTy.bits .f32 = 32 ∨ (Rect.block (s := S2048x2048) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x2048.size a
  hwx0_4 : ∀ i : grid0.Coords, EltTy.bits .f32 = 32 ∨ (Rect.block (s := S8192x2048) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x2048.size a
  hwx0_5 : ∀ i : grid0.Coords, EltTy.bits .f32 = 32 ∨ (Rect.block (s := S8192x2048) S512x512.size (cc0_transform_5 i) (hinb0_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v48_0) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v48_1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 104
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .i1⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048x2048, .f32⟩
  | .hbm, ⟨65, _⟩ => ⟨S2048x2048, .i1⟩
  | .hbm, ⟨66, _⟩ => ⟨S_, .f32⟩
  | .hbm, ⟨67, _⟩ => ⟨S_, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .i1⟩
  | .hbm, ⟨75, _⟩ => ⟨S_, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S2048x2048, .f32⟩
  | .hbm, ⟨95, _⟩ => ⟨S8192x2048, .f32⟩
  | .hbm, ⟨96, _⟩ => ⟨S2048x2048, .f32⟩
  | .hbm, ⟨97, _⟩ => ⟨S8192x2048, .f32⟩
  | .hbm, ⟨98, _⟩ => ⟨S8192x2048, .f32⟩
  | .hbm, ⟨99, _⟩ => ⟨S2048x2048, .f32⟩
  | .hbm, ⟨100, _⟩ => ⟨S8192x2048, .f32⟩
  | .hbm, ⟨101, _⟩ => ⟨S2048x2048, .f32⟩
  | .hbm, ⟨102, _⟩ => ⟨S8192x2048, .f32⟩
  | .hbm, ⟨103, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_cst_6 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_v14 : Ref sig .tc := ⟨.hbm, 28, rfl⟩
abbrev main_cst_7 : Ref sig .tc := ⟨.hbm, 29, rfl⟩
abbrev main_v15 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev main_v18 : Ref sig .tc := ⟨.hbm, 34, rfl⟩
abbrev main_call2_v0 : Ref sig .tc := ⟨.hbm, 35, rfl⟩
abbrev main_v19 : Ref sig .tc := ⟨.hbm, 36, rfl⟩
abbrev main_cst_9 : Ref sig .tc := ⟨.hbm, 37, rfl⟩
abbrev main_cst_10 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_11 : Ref sig .tc := ⟨.hbm, 48, rfl⟩
abbrev main_v24 : Ref sig .tc := ⟨.hbm, 49, rfl⟩
abbrev main_cst_12 : Ref sig .tc := ⟨.hbm, 50, rfl⟩
abbrev main_v25 : Ref sig .tc := ⟨.hbm, 51, rfl⟩
abbrev main_cst_13 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_14 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_15 : Ref sig .tc := ⟨.hbm, 60, rfl⟩
abbrev main_v32 : Ref sig .tc := ⟨.hbm, 61, rfl⟩
abbrev main_v33 : Ref sig .tc := ⟨.hbm, 62, rfl⟩
abbrev main_cst_16 : Ref sig .tc := ⟨.hbm, 63, rfl⟩
abbrev main_v34 : Ref sig .tc := ⟨.hbm, 64, rfl⟩
abbrev main_v35 : Ref sig .tc := ⟨.hbm, 65, rfl⟩
abbrev main_cst_17 : Ref sig .tc := ⟨.hbm, 66, rfl⟩
abbrev main_cst_18 : Ref sig .tc := ⟨.hbm, 67, rfl⟩
abbrev main_call5_v0 : Ref sig .tc := ⟨.hbm, 68, rfl⟩
abbrev main_call5_v1 : Ref sig .tc := ⟨.hbm, 69, rfl⟩
abbrev main_v36 : Ref sig .tc := ⟨.hbm, 70, rfl⟩
abbrev main_v37 : Ref sig .tc := ⟨.hbm, 71, rfl⟩
abbrev main_cst_19 : Ref sig .tc := ⟨.hbm, 72, rfl⟩
abbrev main_v38 : Ref sig .tc := ⟨.hbm, 73, rfl⟩
abbrev main_v39 : Ref sig .tc := ⟨.hbm, 74, rfl⟩
abbrev main_cst_20 : Ref sig .tc := ⟨.hbm, 75, rfl⟩
abbrev main_v40 : Ref sig .tc := ⟨.hbm, 76, rfl⟩
abbrev main_v41 : Ref sig .tc := ⟨.hbm, 77, rfl⟩
abbrev main_call6_v0 : Ref sig .tc := ⟨.hbm, 78, rfl⟩
abbrev main_v42 : Ref sig .tc := ⟨.hbm, 79, rfl⟩
abbrev main_cst_21 : Ref sig .tc := ⟨.hbm, 80, rfl⟩
abbrev main_cst_22 : Ref sig .tc := ⟨.hbm, 81, rfl⟩
abbrev main_call7_v0 : Ref sig .tc := ⟨.hbm, 82, rfl⟩
abbrev main_call7_v1 : Ref sig .tc := ⟨.hbm, 83, rfl⟩
abbrev main_call7_v2 : Ref sig .tc := ⟨.hbm, 84, rfl⟩
abbrev main_call7_v3 : Ref sig .tc := ⟨.hbm, 85, rfl⟩
abbrev main_call7_v4 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩

abbrev nD : Nat := 1
abbrev τ : Topo := Topo.v7x

variable {F : FTy → Type} [FloatOps F]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  What both programs compute, as one pair of functions of the four argument arrays.

  The complex linear layer: with `x = xr + i·xi` an [8192, 2048] input and `D = dr + i·di` the quantized [2048, 2048]
  weight (rows = output features, columns = input features),
      re[R, C] = Σ_K xr[R,K]·dr[C,K] − Σ_K xi[R,K]·di[C,K]
      im[R, C] = Σ_K xr[R,K]·di[C,K] + Σ_K xi[R,K]·dr[C,K]
  over the 2048 input features `K`. Every entry involved is a real number (see `IsReal`), so the sums are stated over
  the reals, on natural-number coordinates, with the partial sums over the first `n` features that the kernel's
  accumulator passes through (`n = 512, 1024, 1536, 2048`).

  The quantizer `quant` is the four-valued weight quantization both programs apply to each weight matrix: with
  `s = max(mean|w|, 1e-6)`, the entry `w/s` is rounded to the nearest half, an entry that rounds to zero is replaced
  by half its sign, the result is clipped to [-1, 1] and scaled back by `s`.
-/
import Idealize.ShloMosaic.PureOps.Ideal
import Idealize.ShloMosaic.Lib.ValueIdx

noncomputable section

open scoped BigOperators

namespace Cert.Spec

open Idealize.ShloMosaic Idealize.ShloMosaic.ValueIdx

/-- The inputs' and the results' shape. -/
abbrev SX : Shape := ⟨2, ![8192, 2048]⟩
/-- A weight matrix's shape. -/
abbrev SW : Shape := ⟨2, ![2048, 2048]⟩
/-- The scalar shape. -/
abbrev S0 : Shape := ⟨0, ![]⟩

/-- Every entry of the array is a real number (neither infinity). -/
def IsReal {ι : Type} (a : ι → EReal) : Prop := ∀ i, a i = ((a i).toReal : EReal)

/-- The entry at natural-number coordinates, as a real number; `0` outside the array. -/
def ent {n0 n1 : ℕ} (a : (⟨2, ![n0, n1]⟩ : Shape).Idx → EReal) (R K : ℕ) : ℝ :=
  if h : R < n0 ∧ K < n1 then (a (ix2 ⟨R, h.1⟩ ⟨K, h.2⟩)).toReal else 0

/-- Row `R` of `x` against row `C` of `d`, over the first `n` input features. -/
def pdot (x : SX.Idx → EReal) (d : SW.Idx → EReal) (R C n : ℕ) : ℝ :=
  ∑ K ∈ Finset.range n, ent x R K * ent d C K

/-- The real part's partial sum over the first `n` input features. -/
def reAcc (xr xi : SX.Idx → EReal) (dr di : SW.Idx → EReal) (R C n : ℕ) : ℝ :=
  pdot xr dr R C n - pdot xi di R C n

/-- The imaginary part's partial sum over the first `n` input features. -/
def imAcc (xr xi : SX.Idx → EReal) (dr di : SW.Idx → EReal) (R C n : ℕ) : ℝ :=
  pdot xr di R C n + pdot xi dr R C n

/-- The real part of the result. -/
def outRe (xr xi : SX.Idx → EReal) (dr di : SW.Idx → EReal) : SX.Idx → EReal :=
  fun i => ((reAcc xr xi dr di (i 0).val (i 1).val 2048 : ℝ) : EReal)

/-- The imaginary part of the result. -/
def outIm (xr xi : SX.Idx → EReal) (dr di : SW.Idx → EReal) : SX.Idx → EReal :=
  fun i => ((imAcc xr xi dr di (i 0).val (i 1).val 2048 : ℝ) : EReal)

section Quant

/-- A weight matrix reduces over both axes to a scalar. -/
theorem hr : SW.ReducesTo [0, 1] S0 := by decide
/-- The scalar shape has an element. -/
theorem h0 : 0 < S0.numel := by decide
/-- A scalar broadcasts to a weight matrix. -/
theorem hb : S0.BroadcastsInDim SW (![] : Fin 0 → Fin SW.rank) := by decide

/-- The scale of a weight matrix: the mean of its absolute values, floored at `1e-6`. -/
def scale (w : FVec Ideal SW .f32) : FVec Ideal S0 .f32 :=
  maximumf (Host.divf (Host.reduceAdd (Host.absf w) (constant S0 .f32 0x00000000#32) hr h0)
    (constant S0 .f32 0x4A800000#32)) (constant S0 .f32 0x358637BD#32)

/-- The weight over its scale. -/
def scaled (w : FVec Ideal SW .f32) : FVec Ideal SW .f32 :=
  Host.divf w (broadcastInDim SW ![] hb (scale w))

/-- The scaled weight rounded to the nearest half. -/
def halves (w : FVec Ideal SW .f32) : FVec Ideal SW .f32 :=
  Host.divf (Host.roundeven (mulf (scaled w)
      (broadcastInDim SW ![] hb (constant S0 .f32 0x40000000#32))))
    (broadcastInDim SW ![] hb (constant S0 .f32 0x40000000#32))

/-- The rounded value with a zero replaced by half the sign of the scaled weight. -/
def nonzero (w : FVec Ideal SW .f32) : FVec Ideal SW .f32 :=
  select (cmpf .olt (Host.absf (halves w)) (broadcastInDim SW ![] hb (constant S0 .f32 0x3727C5AC#32)))
    (id (mulf (broadcastInDim SW ![] hb (constant S0 .f32 0x3F000000#32))
      (select (cmpf .oge (scaled w) (broadcastInDim SW ![] hb (constant S0 .f32 0x00000000#32)))
        (broadcastInDim SW ![] hb (constant S0 .f32 0x3F800000#32))
        (broadcastInDim SW ![] hb (constant S0 .f32 0xBF800000#32)))))
    (halves w)

/-- That value clipped to [-1, 1]. -/
def clipped (w : FVec Ideal SW .f32) : FVec Ideal SW .f32 :=
  minimumf (broadcastInDim SW ![] hb (id (constant S0 .f32 0x3F800000#32)))
    (maximumf (broadcastInDim SW ![] hb (id (constant S0 .f32 0xBF800000#32))) (nonzero w))

/-- The quantized weight: the clipped value scaled back. -/
def quant (w : FVec Ideal SW .f32) : FVec Ideal SW .f32 :=
  mulf (clipped w) (broadcastInDim SW ![] hb (scale w))

end Quant

end Cert.Spec

end
-- ==== Proof.AccDefs.lean ====
/-
  The accumulators' closed form.

  At grid point `n` (flat; coordinates `(n/16, (n/4)%4, n%4)`) the kernel has added the K-blocks `0 … n%4` of its
  row block and output-feature block, so entry `(p, q)` of the real accumulator is the real part's partial sum over
  the first `512·(n%4 + 1)` input features at row `512·(n/16) + p` and output feature `512·((n/4)%4) + q`; likewise the
  imaginary one. `X0, X1` are the two inputs, `D2, D3` the quantized weights.
-/
import proofs.«142256_j73555609911440_1_alg».proof.Proof.Gen.KernelIdeal.Frame
import proofs.«142256_j73555609911440_1_alg».proof.Proof.Spec

noncomputable section

open Idealize.ShloMosaic Idealize.ShloMosaic.TcCoe Idealize.SL.Sem Idealize.ShloMosaic.ValueIdx

namespace Cert.KernelIdeal.Acc

open Cert.KernelIdeal Cert.KernelIdeal.Gen Cert.Spec

variable (m : (ℓ : Loc nD τ sig) → Buf (Elt Ideal) ℓ) (c : Dev nD)

/-- The real input. -/
abbrev X0 : SX.Idx → EReal := m ((c : Thread nD τ).loc main_arg0)
/-- The imaginary input. -/
abbrev X1 : SX.Idx → EReal := m ((c : Thread nD τ).loc main_arg1)
/-- The quantized real weight. -/
abbrev D2 : SW.Idx → EReal := quant (m ((c : Thread nD τ).loc main_arg2))
/-- The quantized imaginary weight. -/
abbrev D3 : SW.Idx → EReal := quant (m ((c : Thread nD τ).loc main_arg3))

/-- Both inputs and both quantized weights hold real numbers only. -/
structure RealArgs : Prop where
  x0 : IsReal (X0 m c)
  x1 : IsReal (X1 m c)
  d2 : IsReal (D2 m c)
  d3 : IsReal (D3 m c)

/-- The real accumulator after grid point `n`. -/
def accRe (n : ℕ) : S512x512.Idx → ℝ := fun y =>
  reAcc (X0 m c) (X1 m c) (D2 m c) (D3 m c) (512 * (n / 16) + (y 0).val) (512 * ((n / 4) % 4) + (y 1).val) (512 * (n % 4 + 1))

/-- The imaginary accumulator after grid point `n`. -/
def accIm (n : ℕ) : S512x512.Idx → ℝ := fun y =>
  imAcc (X0 m c) (X1 m c) (D2 m c) (D3 m c) (512 * (n / 16) + (y 0).val) (512 * ((n / 4) % 4) + (y 1).val) (512 * (n % 4 + 1))

end Cert.KernelIdeal.Acc

end
-- ==== Proof.RealSums.lean ====
/-
  Sums of real numbers inside the extended reals, and the two laws that join the kernel's arithmetic to the
  reference's.

  Every entry the two programs multiply is a real number (the inputs by the precondition, the quantized weights
  because a clipped value times a finite scale is finite), so every sum below is the image of a real sum, and the
  identities are those of the real numbers:

  * a real `w` plus (`d` minus `w`) is `d`, for every extended real `d` — the reference's straight-through
    estimator `w + (dq - w)` is the quantized weight itself;
  * a sum over `0 ≤ K < a + b` splits into the sum over `K < a` and the sum over the next `b` indices — one K-block
    more in the accumulator.
-/
import Mathlib.Data.EReal.Basic
import Mathlib.Data.EReal.Operations
import Mathlib.Algebra.BigOperators.Fin
import Mathlib.Algebra.BigOperators.Intervals
import Mathlib.Tactic.Ring
import Mathlib.Tactic.Linarith

noncomputable section

open scoped BigOperators

namespace Cert.RealSums

/-- The image in the extended reals of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of images is the image of the sum of products. -/
theorem sum_coe_mul_coe {ι : Type*} (s : Finset ι) (f g : ι → ℝ) :
    ∑ i ∈ s, ((f i : EReal) * (g i : EReal)) = ((∑ i ∈ s, f i * g i : ℝ) : EReal) := by
  rw [coe_sum]
  exact Finset.sum_congr rfl fun i _ => (EReal.coe_mul _ _).symm

/-- A real number plus the difference of any extended real and it gives that extended real back. -/
theorem coe_add_sub_cancel (w : ℝ) (d : EReal) : (w : EReal) + (d - (w : EReal)) = d := by
  induction d using EReal.rec with
  | bot => simp
  | top => simp
  | coe r => rw [← EReal.coe_sub, ← EReal.coe_add]; congr 1; ring

/-- A sum over `Fin n` of a function of the value is the sum over `range n`. -/
theorem sum_fin_eq_range (n : ℕ) (f : ℕ → ℝ) : ∑ k : Fin n, f k.val = ∑ k ∈ Finset.range n, f k :=
  Fin.sum_univ_eq_sum_range f n

/-- One more block of `b` indices after the first `a`. -/
theorem sum_range_block (f : ℕ → ℝ) (a b : ℕ) :
    ∑ K ∈ Finset.range (a + b), f K = ∑ K ∈ Finset.range a, f K + ∑ k ∈ Finset.range b, f (a + k) :=
  Finset.sum_range_add f a b

end Cert.RealSums

end
-- ==== Proof.AccSums.lean ====
/-
  The partial dot products one K-block at a time, and an entry of a real array as the image of its real value.
-/
import proofs.«142256_j73555609911440_1_alg».proof.Proof.Spec
import proofs.«142256_j73555609911440_1_alg».proof.Proof.RealSums

noncomputable section

open scoped BigOperators

namespace Cert.Spec

open Idealize.ShloMosaic Idealize.ShloMosaic.ValueIdx

/-- An entry of a real array is the image of its real value. -/
theorem ent_coe {n0 n1 : ℕ} (a : (⟨2, ![n0, n1]⟩ : Shape).Idx → EReal) (ha : IsReal a) (R : Fin n0) (K : Fin n1) :
    a (ix2 R K) = ((ent a R.val K.val : ℝ) : EReal) := by
  unfold ent
  rw [dif_pos ⟨R.isLt, K.isLt⟩]
  exact ha _

/-- Over no input feature the partial dot product is zero. -/
theorem pdot_zero (x : SX.Idx → EReal) (d : SW.Idx → EReal) (R C : ℕ) : pdot x d R C 0 = 0 := by
  unfold pdot
  simp

/-- One more K-block of 512 input features. -/
theorem pdot_step (x : SX.Idx → EReal) (d : SW.Idx → EReal) (R C k : ℕ) :
    pdot x d R C (512 * (k + 1))
      = pdot x d R C (512 * k) + ∑ kk : Fin 512, ent x R (512 * k + kk.val) * ent d C (512 * k + kk.val) := by
  unfold pdot
  rw [show 512 * (k + 1) = 512 * k + 512 by ring, RealSums.sum_range_block]
  rw [RealSums.sum_fin_eq_range 512 (fun kk => ent x R (512 * k + kk) * ent d C (512 * k + kk))]

end Cert.Spec

end
-- ==== Proof.Pieces.lean ====
/-
  What each control case of the kernel body leaves in the two accumulators and, at the last K-block, in the two
  output blocks, as the body's arithmetic applied to the input blocks it loaded.

  The first K-block stores a zero accumulator and then the zero plus the block's contribution; a later K-block reads
  the accumulator the point before left and adds its contribution; the last K-block also copies both accumulators to
  the output blocks. The contribution to the real accumulator is `xr·wr − xi·wi` and to the imaginary one
  `xr·wi + xi·wr` (the generated payloads `k0_pay7`, `k0_pay8`; the zero blocks `k0_pay1`, `k0_pay2`).
-/
import proofs.«142256_j73555609911440_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- A whole-block access starts at the origin. -/
theorem hz : (![0, 0] : Fin 2 → Nat) = fun _ => 0 := funext fun a => by fin_cases a <;> rfl

variable (c : Dev nD) (i : grid0.Coords) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S512x512 .f32) (h6 : a6.IsWhole) (a7 : Memref sig .tc .vmem S512x512 .f32) (h7 : a7.IsWhole) (a8 : Memref sig .tc .vmem S512x512 .f32) (h8 : a8.IsWhole) (a9 : Memref sig .tc .vmem S512x512 .f32) (h9 : a9.IsWhole) (a10 : Memref sig .tc .vmem S512x512 .f32) (h10 : a10.IsWhole)
  (x0 x1 x2 x3 xs0 xs1 : Vec F S512x512 .f32)

/-- First K-block, real accumulator: the zero block plus the block's contribution. -/
theorem sout_A_0 (hc0 : cond0_0 i) (hc1 : ¬cond0_1 i) :
    sout0_A_0 c i a3 h3 a4 h4 a5 h5 a6 h6 a7 h7 a8 h8 a9 h9 a10 h10 hc0 hc1 x0 x1 x2 x3 = k0_pay7 x0 x1 x2 x3 (k0_pay1 (F := F)) := by
  unfold sout0_A_0
  rw [View.read_writes_eq_canon _ _ _ (scover0_A_0 c i a3 h3 a4 h4 a5 h5 a6 h6 a7 h7 a8 h8 a9 h9 a10 h10 hc0 hc1 x0 x1 x2 x3)]
  unfold kernelRun0_A
  dsimp only
  sl_unfold_words
  rw [View.canon_cons_unit_zero (S := S512x512) hz, View.readCov_unit_zero (S := S512x512) _ hz]
  simp only [View.readAt_eq_ld, h3.read_unread, h4.read_unread, h5.read_unread, h6.read_unread, h9.read_unread, h10.read_unread, View.ld_unit_zero (S := S512x512) hz]

/-- First K-block, imaginary accumulator: the zero block plus the block's contribution. -/
theorem sout_A_1 (hc0 : cond0_0 i) (hc1 : ¬cond0_1 i) :
    sout0_A_1 c i a3 h3 a4 h4 a5 h5 a6 h6 a7 h7 a8 h8 a9 h9 a10 h10 hc0 hc1 x0 x1 x2 x3 = k0_pay8 x0 x1 x2 x3 (k0_pay2 (F := F)) := by
  unfold sout0_A_1
  rw [View.read_writes_eq_canon _ _ _ (scover0_A_1 c i a3 h3 a4 h4 a5 h5 a6 h6 a7 h7 a8 h8 a9 h9 a10 h10 hc0 hc1 x0 x1 x2 x3)]
  unfold kernelRun0_A
  dsimp only
  sl_unfold_words
  rw [View.canon_cons_unit_zero (S := S512x512) hz, View.readCov_unit_zero (S := S512x512) _ hz]
  simp only [View.readAt_eq_ld, h3.read_unread, h4.read_unread, h5.read_unread, h6.read_unread, h9.read_unread, h10.read_unread, View.ld_unit_zero (S := S512x512) hz]

/-- A middle K-block, real accumulator: what the point before left plus the block's contribution. -/
theorem sout_B_0 (hc0 : ¬cond0_0 i) (hc1 : ¬cond0_1 i) :
    sout0_B_0 c i a3 h3 a4 h4 a5 h5 a6 h6 a7 h7 a8 h8 a9 h9 a10 h10 hc0 hc1 x0 x1 x2 x3 xs0 xs1 = k0_pay7 x0 x1 x2 x3 xs0 := by
  unfold sout0_B_0
  rw [View.read_writes_eq_canon _ _ _ (scover0_B_0 c i a3 h3 a4 h4 a5 h5 a6 h6 a7 h7 a8 h8 a9 h9 a10 h10 hc0 hc1 x0 x1 x2 x3 xs0 xs1)]
  unfold kernelRun0_B
  dsimp only
  sl_unfold_words
  rw [View.canon_unit_zero hz]
  simp only [View.readAt_eq_ld, h3.read_unread, h4.read_unread, h5.read_unread, h6.read_unread, h9.read_unread, h10.read_unread, View.ld_unit_zero (S := S512x512) hz]

/-- A middle K-block, imaginary accumulator. -/
theorem sout_B_1 (hc0 : ¬cond0_0 i) (hc1 : ¬cond0_1 i) :
    sout0_B_1 c i a3 h3 a4 h4 a5 h5 a6 h6 a7 h7 a8 h8 a9 h9 a10 h10 hc0 hc1 x0 x1 x2 x3 xs0 xs1 = k0_pay8 x0 x1 x2 x3 xs1 := by
  unfold sout0_B_1
  rw [View.read_writes_eq_canon _ _ _ (scover0_B_1 c i a3 h3 a4 h4 a5 h5 a6 h6 a7 h7 a8 h8 a9 h9 a10 h10 hc0 hc1 x0 x1 x2 x3 xs0 xs1)]
  unfold kernelRun0_B
  dsimp only
  sl_unfold_words
  rw [View.canon_unit_zero hz]
  simp only [View.readAt_eq_ld, h3.read_unread, h4.read_unread, h5.read_unread, h6.read_unread, h9.read_unread, h10.read_unread, View.ld_unit_zero (S := S512x512) hz]

/-- The last K-block, real accumulator. -/
theorem sout_C_0 (hc0 : ¬cond0_0 i) (hc1 : cond0_1 i) :
    sout0_C_0 c i a3 h3 a4 h4 a5 h5 a6 h6 a7 h7 a8 h8 a9 h9 a10 h10 hc0 hc1 x0 x1 x2 x3 xs0 xs1 = k0_pay7 x0 x1 x2 x3 xs0 := by
  unfold sout0_C_0
  rw [View.read_writes_eq_canon _ _ _ (scover0_C_0 c i a3 h3 a4 h4 a5 h5 a6 h6 a7 h7 a8 h8 a9 h9 a10 h10 hc0 hc1 x0 x1 x2 x3 xs0 xs1)]
  unfold kernelRun0_C
  dsimp only
  sl_unfold_words
  rw [View.canon_unit_zero hz]
  simp only [View.readAt_eq_ld, h3.read_unread, h4.read_unread, h5.read_unread, h6.read_unread, h9.read_unread, h10.read_unread, View.ld_unit_zero (S := S512x512) hz]

/-- The last K-block, imaginary accumulator. -/
theorem sout_C_1 (hc0 : ¬cond0_0 i) (hc1 : cond0_1 i) :
    sout0_C_1 c i a3 h3 a4 h4 a5 h5 a6 h6 a7 h7 a8 h8 a9 h9 a10 h10 hc0 hc1 x0 x1 x2 x3 xs0 xs1 = k0_pay8 x0 x1 x2 x3 xs1 := by
  unfold sout0_C_1
  rw [View.read_writes_eq_canon _ _ _ (scover0_C_1 c i a3 h3 a4 h4 a5 h5 a6 h6 a7 h7 a8 h8 a9 h9 a10 h10 hc0 hc1 x0 x1 x2 x3 xs0 xs1)]
  unfold kernelRun0_C
  dsimp only
  sl_unfold_words
  rw [View.canon_unit_zero hz]
  simp only [View.readAt_eq_ld, h3.read_unread, h4.read_unread, h5.read_unread, h6.read_unread, h9.read_unread, h10.read_unread, View.ld_unit_zero (S := S512x512) hz]

/-- The last K-block copies the finished real accumulator to the first output block. -/
theorem out_C_4 (hc0 : ¬cond0_0 i) (hc1 : cond0_1 i) :
    out0_C_4 c i a3 h3 a4 h4 a5 h5 a6 h6 a7 h7 a8 h8 a9 h9 a10 h10 hc0 hc1 x0 x1 x2 x3 xs0 xs1 = k0_pay7 x0 x1 x2 x3 xs0 := by
  unfold out0_C_4
  rw [View.read_writes_eq_canon _ _ _ (cover0_C_4 c i a3 h3 a4 h4 a5 h5 a6 h6 a7 h7 a8 h8 a9 h9 a10 h10 hc0 hc1 x0 x1 x2 x3 xs0 xs1)]
  unfold kernelRun0_C
  dsimp only
  sl_unfold_words
  rw [View.canon_unit_zero hz]
  simp only [View.readAt_eq_ld, h3.read_unread, h4.read_unread, h5.read_unread, h6.read_unread, h9.read_unread, h10.read_unread, View.ld_unit_zero (S := S512x512) hz, View.readCov_unit_zero (S := S512x512) _ hz]

/-- The last K-block copies the finished imaginary accumulator to the second output block. -/
theorem out_C_5 (hc0 : ¬cond0_0 i) (hc1 : cond0_1 i) :
    out0_C_5 c i a3 h3 a4 h4 a5 h5 a6 h6 a7 h7 a8 h8 a9 h9 a10 h10 hc0 hc1 x0 x1 x2 x3 xs0 xs1 = k0_pay8 x0 x1 x2 x3 xs1 := by
  unfold out0_C_5
  rw [View.read_writes_eq_canon _ _ _ (cover0_C_5 c i a3 h3 a4 h4 a5 h5 a6 h6 a7 h7 a8 h8 a9 h9 a10 h10 hc0 hc1 x0 x1 x2 x3 xs0 xs1)]
  unfold kernelRun0_C
  dsimp only
  sl_unfold_words
  rw [View.canon_unit_zero hz]
  simp only [View.readAt_eq_ld, h3.read_unread, h4.read_unread, h5.read_unread, h6.read_unread, h9.read_unread, h10.read_unread, View.ld_unit_zero (S := S512x512) hz, View.readCov_unit_zero (S := S512x512) _ hz]

end Cert.KernelIdeal.Pieces

end
-- ==== Proof.PayloadAt.lean ====
/-
  The body's arithmetic at one entry of a block, when every loaded entry is a real number.

  A 512×512 matrix product into a zero accumulator is, at row `p` and column `q`, the sum over the 512 contraction
  indices of the left operand's entry in row `p` times the right operand's entry in column `q`; the change of float
  format before it is the identity on extended reals. So the real accumulator's new entry is its old entry plus
  `Σ xr·wr − Σ xi·wi`, the imaginary one's its old entry plus `Σ xr·wi + Σ xi·wr`, and all of it is the image of the
  same expression over the reals.
-/
import proofs.«142256_j73555609911440_1_alg».proof.Proof.Gen.KernelIdeal.Skeleton
import proofs.«142256_j73555609911440_1_alg».proof.Proof.RealSums
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.PayloadAt

open Cert.KernelIdeal Cert.KernelIdeal.Gen

theorem lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A block product into the zero accumulator at row `p`, column `q`: the sum over the contraction index. -/
theorem matmul_at {φ₁ φ₂ : FTy} (l : FVec Ideal S512x512 φ₁) (r : FVec Ideal S512x512 φ₂) (p q : Fin 512) :
    matmul dot_S512x512_S512x512_S512x512_1_0_0_1_n_n none l r (constant S512x512 .f32 0x00000000#32) (ix2 p q)
      = ∑ k : Fin 512, l (ix2 p k) * r (ix2 k q) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun a => Fin.ext (by
    match a with
    | ⟨0, _⟩ => exact lhs_0 _ _
    | ⟨1, _⟩ => exact (lhs_1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun a => Fin.ext (by
    match a with
    | ⟨0, _⟩ => exact (rhs_0 _ _).trans hk
    | ⟨1, _⟩ => exact rhs_1 _ _)
  rw [el, er]

/-- The real accumulator's update at an entry, over real blocks. -/
theorem pay7_at (f0 f1 f2 f3 g : S512x512.Idx → ℝ) (p q : Fin 512) :
    k0_pay7 (F := Ideal) (fun y => (f0 y : EReal)) (fun y => (f1 y : EReal)) (fun y => (f2 y : EReal))
        (fun y => (f3 y : EReal)) (fun y => (g y : EReal)) (ix2 p q)
      = ((g (ix2 p q) + ((∑ k : Fin 512, f0 (ix2 p k) * f2 (ix2 k q)) - ∑ k : Fin 512, f1 (ix2 p k) * f3 (ix2 k q)) : ℝ) : EReal) := by
  unfold k0_pay7 k0_pay3 k0_pay4 k0_pay5 k0_pay6
  simp only [shapeCast_self]
  rw [addf_apply, subf_apply, matmul_at, matmul_at]
  simp only [truncf_apply]
  rw [← Finset.sum_congr rfl (fun k _ => rfl), RealSums.sum_coe_mul_coe Finset.univ (fun k => f0 (ix2 p k)) (fun k => f2 (ix2 k q)),
    RealSums.sum_coe_mul_coe Finset.univ (fun k => f1 (ix2 p k)) (fun k => f3 (ix2 k q)), ← EReal.coe_sub, ← EReal.coe_add]

/-- The imaginary accumulator's update at an entry, over real blocks. -/
theorem pay8_at (f0 f1 f2 f3 g : S512x512.Idx → ℝ) (p q : Fin 512) :
    k0_pay8 (F := Ideal) (fun y => (f0 y : EReal)) (fun y => (f1 y : EReal)) (fun y => (f2 y : EReal))
        (fun y => (f3 y : EReal)) (fun y => (g y : EReal)) (ix2 p q)
      = ((g (ix2 p q) + ((∑ k : Fin 512, f0 (ix2 p k) * f3 (ix2 k q)) + ∑ k : Fin 512, f1 (ix2 p k) * f2 (ix2 k q)) : ℝ) : EReal) := by
  unfold k0_pay8 k0_pay3 k0_pay4 k0_pay5 k0_pay6
  simp only [shapeCast_self]
  rw [addf_apply, addf_apply, matmul_at, matmul_at]
  simp only [truncf_apply]
  rw [RealSums.sum_coe_mul_coe Finset.univ (fun k => f0 (ix2 p k)) (fun k => f3 (ix2 k q)),
    RealSums.sum_coe_mul_coe Finset.univ (fun k => f1 (ix2 p k)) (fun k => f2 (ix2 k q)), ← EReal.coe_add, ← EReal.coe_add]

/-- The zero block an accumulator is reset to, at an entry. -/
theorem pay1_at (y : S512x512.Idx) : k0_pay1 (F := Ideal) y = ((0 : ℝ) : EReal) := by
  unfold k0_pay1
  simp only [shapeCast_self]
  show Ideal.ofBits .f32 0x00000000#32 = _
  rw [Ideal.ofBits_zero_f32]; rfl

theorem pay2_at (y : S512x512.Idx) : k0_pay2 (F := Ideal) y = ((0 : ℝ) : EReal) := by
  unfold k0_pay2
  simp only [shapeCast_self]
  show Ideal.ofBits .f32 0x00000000#32 = _
  rw [Ideal.ofBits_zero_f32]; rfl

end Cert.KernelIdeal.PayloadAt

end
-- ==== Proof.Blocks.lean ====
/-
  The four input blocks of a grid point, read off the arrays the region finds.

  Grid point `t` (flat, the last axis fastest) has coordinates `(t / 16, (t / 4) % 4, t % 4)`: a block of 512 rows of
  the inputs, a block of 512 output features, and a block of 512 input features. The two input windows read rows
  `512·(t/16) + p` and columns `512·(t%4) + q` of the inputs; the two weight windows read rows `512·(t%4) + p` (input
  features) and columns `512·((t/4)%4) + q` (output features) of the transposed quantized weights.
-/
import proofs.«142256_j73555609911440_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- A grid point's flat index is below 256. -/
theorem t_lt (t : Fin cfg0.N) : t.val < 256 := lt_of_lt_of_eq t.isLt N_0

/-- The first input window's block index at every grid point: the row block and the block of input features. -/
theorem idx0 : ∀ t : Fin cfg0.N, win0_0.index t 0 = t.val / 16 ∧ win0_0.index t 1 = t.val % 4 := by decide +kernel
/-- The second input window's block index: the same. -/
theorem idx1 : ∀ t : Fin cfg0.N, win0_1.index t 0 = t.val / 16 ∧ win0_1.index t 1 = t.val % 4 := by decide +kernel
/-- The first weight window's block index: the block of input features and the block of output features. -/
theorem idx2 : ∀ t : Fin cfg0.N, win0_2.index t 0 = t.val % 4 ∧ win0_2.index t 1 = (t.val / 4) % 4 := by decide +kernel
/-- The second weight window's block index: the same. -/
theorem idx3 : ∀ t : Fin cfg0.N, win0_3.index t 0 = t.val % 4 ∧ win0_3.index t 1 = (t.val / 4) % 4 := by decide +kernel

/-- The real input's block at a point. -/
abbrev blk0 (c : Dev nD) (t : Fin cfg0.N) : Vec F S512x512 .f32 := iblk m c 0 t
/-- The imaginary input's block at a point. -/
abbrev blk1 (c : Dev nD) (t : Fin cfg0.N) : Vec F S512x512 .f32 := iblk m c 1 t
/-- The real weight's block at a point. -/
abbrev blk2 (c : Dev nD) (t : Fin cfg0.N) : Vec F S512x512 .f32 := iblk m c 2 t
/-- The imaginary weight's block at a point. -/
abbrev blk3 (c : Dev nD) (t : Fin cfg0.N) : Vec F S512x512 .f32 := iblk m c 3 t

theorem blk0_at (c : Dev nD) (t : Fin cfg0.N) (p q : Fin 512) :
    blk0 m c t (ix2 p q) = (V m c main_arg0 : S8192x2048.Idx → Elt F .f32)
      (ix2 ⟨512 * (t.val / 16) + p.val, by have := t_lt t; have := p.isLt; omega⟩
           ⟨512 * (t.val % 4) + q.val, by have := q.isLt; omega⟩) := by
  unfold blk0 iblk
  rw [View.read_apply]
  show V m c main_arg0 _ = V m c main_arg0 _
  congr 1
  funext a
  apply Fin.ext
  match a with
  | ⟨0, _⟩ => show win0_0.index t 0 * 512 + 1 * p.val = 512 * (t.val / 16) + p.val; rw [(idx0 t).1]; omega
  | ⟨1, _⟩ => show win0_0.index t 1 * 512 + 1 * q.val = 512 * (t.val % 4) + q.val; rw [(idx0 t).2]; omega

theorem blk1_at (c : Dev nD) (t : Fin cfg0.N) (p q : Fin 512) :
    blk1 m c t (ix2 p q) = (V m c main_arg1 : S8192x2048.Idx → Elt F .f32)
      (ix2 ⟨512 * (t.val / 16) + p.val, by have := t_lt t; have := p.isLt; omega⟩
           ⟨512 * (t.val % 4) + q.val, by have := q.isLt; omega⟩) := by
  unfold blk1 iblk
  rw [View.read_apply]
  show V m c main_arg1 _ = V m c main_arg1 _
  congr 1
  funext a
  apply Fin.ext
  match a with
  | ⟨0, _⟩ => show win0_1.index t 0 * 512 + 1 * p.val = 512 * (t.val / 16) + p.val; rw [(idx1 t).1]; omega
  | ⟨1, _⟩ => show win0_1.index t 1 * 512 + 1 * q.val = 512 * (t.val % 4) + q.val; rw [(idx1 t).2]; omega

theorem blk2_at (c : Dev nD) (t : Fin cfg0.N) (p q : Fin 512) :
    blk2 m c t (ix2 p q) = (V m c main_v46 : S2048x2048.Idx → Elt F .f32)
      (ix2 ⟨512 * (t.val % 4) + p.val, by have := p.isLt; omega⟩
           ⟨512 * ((t.val / 4) % 4) + q.val, by have := q.isLt; omega⟩) := by
  unfold blk2 iblk
  rw [View.read_apply]
  show V m c main_v46 _ = V m c main_v46 _
  congr 1
  funext a
  apply Fin.ext
  match a with
  | ⟨0, _⟩ => show win0_2.index t 0 * 512 + 1 * p.val = 512 * (t.val % 4) + p.val; rw [(idx2 t).1]; omega
  | ⟨1, _⟩ => show win0_2.index t 1 * 512 + 1 * q.val = 512 * ((t.val / 4) % 4) + q.val; rw [(idx2 t).2]; omega

theorem blk3_at (c : Dev nD) (t : Fin cfg0.N) (p q : Fin 512) :
    blk3 m c t (ix2 p q) = (V m c main_v47 : S2048x2048.Idx → Elt F .f32)
      (ix2 ⟨512 * (t.val % 4) + p.val, by have := p.isLt; omega⟩
           ⟨512 * ((t.val / 4) % 4) + q.val, by have := q.isLt; omega⟩) := by
  unfold blk3 iblk
  rw [View.read_apply]
  show V m c main_v47 _ = V m c main_v47 _
  congr 1
  funext a
  apply Fin.ext
  match a with
  | ⟨0, _⟩ => show win0_3.index t 0 * 512 + 1 * p.val = 512 * (t.val % 4) + p.val; rw [(idx3 t).1]; omega
  | ⟨1, _⟩ => show win0_3.index t 1 * 512 + 1 * q.val = 512 * ((t.val / 4) % 4) + q.val; rw [(idx3 t).2]; omega

end Cert.KernelIdeal.Blocks

end
-- ==== Proof.HostSide.lean ====
/-
  The two weight arrays the kernel region reads, as the host operations before the region leave them: the transposed
  quantized weights, indexed by (input feature, output feature).
-/
import proofs.«142256_j73555609911440_1_alg».proof.Proof.Gen.KernelIdeal.Frame
import proofs.«142256_j73555609911440_1_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.HostSide

open Cert.KernelIdeal Cert.KernelIdeal.Gen

variable (m : (ℓ : Loc nD τ sig) → Buf (Elt Ideal) ℓ)

set_option maxRecDepth 8192 in
set_option maxHeartbeats 4000000 in
/-- The real weight window's array: the quantized real weight, transposed. -/
theorem V_v46 (c : Dev nD) :
    (V m c main_v46 : S2048x2048.Idx → EReal)
      = transpose S2048x2048 [1, 0] (Cert.Spec.quant (m ((c : Thread nD τ).loc main_arg2))) transposes_S2048x2048_S2048x2048_1_0 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxRecDepth 8192 in
set_option maxHeartbeats 4000000 in
/-- The imaginary weight window's array: the quantized imaginary weight, transposed. -/
theorem V_v47 (c : Dev nD) :
    (V m c main_v47 : S2048x2048.Idx → EReal)
      = transpose S2048x2048 [1, 0] (Cert.Spec.quant (m ((c : Thread nD τ).loc main_arg3))) transposes_S2048x2048_S2048x2048_1_0 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- The entry for input feature `k` and output feature `o` of that array is the quantized weight's entry `(o, k)`. -/
theorem wt_v46_at (c : Dev nD) (k o : Fin 2048) :
    (V m c main_v46 : S2048x2048.Idx → EReal) (ix2 k o) = Cert.Spec.quant (m ((c : Thread nD τ).loc main_arg2)) (ix2 o k) := by
  rw [V_v46]
  exact transpose_apply [1, 0] _ transposes_S2048x2048_S2048x2048_1_0 (ix2 k o) (ix2 o k) (fun b => match b with
    | ⟨0, _⟩ => rfl
    | ⟨1, _⟩ => rfl)

/-- The entry for input feature `k` and output feature `o` of that array is the quantized weight's entry `(o, k)`. -/
theorem wt_v47_at (c : Dev nD) (k o : Fin 2048) :
    (V m c main_v47 : S2048x2048.Idx → EReal) (ix2 k o) = Cert.Spec.quant (m ((c : Thread nD τ).loc main_arg3)) (ix2 o k) := by
  rw [V_v47]
  exact transpose_apply [1, 0] _ transposes_S2048x2048_S2048x2048_1_0 (ix2 k o) (ix2 o k) (fun b => match b with
    | ⟨0, _⟩ => rfl
    | ⟨1, _⟩ => rfl)

end Cert.KernelIdeal.HostSide

end
-- ==== Proof.Invariant.lean ====
/-
  What the accumulators and the output blocks hold after each grid point, by induction on the point.

  Every block the body loads is real: an input block is a tile of a real input, a weight block a tile of the
  transposed quantized weight. So the body's update of an accumulator holding the real block `g` leaves
  `g + (this K-block's contribution)`, the first K-block starts from zero, and a later one from what the point before
  left, whose row block and output-feature block are the same. Adding a K-block's contribution to the partial sum over
  the K-blocks before it gives the partial sum over one more K-block.
-/
import proofs.«142256_j73555609911440_1_alg».proof.Proof.AccDefs
import proofs.«142256_j73555609911440_1_alg».proof.Proof.AccSums
import proofs.«142256_j73555609911440_1_alg».proof.Proof.Pieces
import proofs.«142256_j73555609911440_1_alg».proof.Proof.PayloadAt
import proofs.«142256_j73555609911440_1_alg».proof.Proof.Blocks
import proofs.«142256_j73555609911440_1_alg».proof.Proof.HostSide

noncomputable section

open scoped BigOperators
open Idealize.ShloMosaic Idealize.ShloMosaic.TcCoe Idealize.SL.Sem Idealize.ShloMosaic.ValueIdx

namespace Cert.KernelIdeal.Invariant

open Cert.KernelIdeal Cert.KernelIdeal.Gen Cert.Spec Cert.KernelIdeal.Acc

variable (m : (ℓ : Loc nD τ sig) → Buf (Elt Ideal) ℓ) (c : Dev nD)

/-! ## The blocks of a point, as real blocks -/

/-- The real input's block at point `n`: row `p`, input feature `k` of the block. -/
def b0 (n : ℕ) (p k : Fin 512) : ℝ := ent (X0 m c) (512 * (n / 16) + p.val) (512 * (n % 4) + k.val)
/-- The imaginary input's block at point `n`. -/
def b1 (n : ℕ) (p k : Fin 512) : ℝ := ent (X1 m c) (512 * (n / 16) + p.val) (512 * (n % 4) + k.val)
/-- The real weight's block at point `n`: input feature `k`, output feature `q` of the block. -/
def b2 (n : ℕ) (k q : Fin 512) : ℝ := ent (D2 m c) (512 * ((n / 4) % 4) + q.val) (512 * (n % 4) + k.val)
/-- The imaginary weight's block at point `n`. -/
def b3 (n : ℕ) (k q : Fin 512) : ℝ := ent (D3 m c) (512 * ((n / 4) % 4) + q.val) (512 * (n % 4) + k.val)

theorem blk0_real (hreal : RealArgs m c) (t : Fin cfg0.N) :
    (iblk m c 0 t : Vec Ideal S512x512 .f32) = fun y => ((b0 m c t.val (y 0) (y 1) : ℝ) : EReal) := by
  funext y
  obtain ⟨p, q, rfl⟩ : ∃ (p q : Fin 512), y = ix2 p q := ⟨y 0, y 1, eq_ix2 y⟩
  refine (Blocks.blk0_at m c t p q).trans ((congrFun (V_main_arg0 m c) _).trans ?_)
  exact ent_coe (X0 m c) hreal.x0 _ _

theorem blk1_real (hreal : RealArgs m c) (t : Fin cfg0.N) :
    (iblk m c 1 t : Vec Ideal S512x512 .f32) = fun y => ((b1 m c t.val (y 0) (y 1) : ℝ) : EReal) := by
  funext y
  obtain ⟨p, q, rfl⟩ : ∃ (p q : Fin 512), y = ix2 p q := ⟨y 0, y 1, eq_ix2 y⟩
  refine (Blocks.blk1_at m c t p q).trans ((congrFun (V_main_arg1 m c) _).trans ?_)
  exact ent_coe (X1 m c) hreal.x1 _ _

theorem blk2_real (hreal : RealArgs m c) (t : Fin cfg0.N) :
    (iblk m c 2 t : Vec Ideal S512x512 .f32) = fun y => ((b2 m c t.val (y 0) (y 1) : ℝ) : EReal) := by
  funext y
  obtain ⟨p, q, rfl⟩ : ∃ (p q : Fin 512), y = ix2 p q := ⟨y 0, y 1, eq_ix2 y⟩
  refine (Blocks.blk2_at m c t p q).trans ((HostSide.wt_v46_at m c _ _).trans ?_)
  exact ent_coe (D2 m c) hreal.d2 _ _

theorem blk3_real (hreal : RealArgs m c) (t : Fin cfg0.N) :
    (iblk m c 3 t : Vec Ideal S512x512 .f32) = fun y => ((b3 m c t.val (y 0) (y 1) : ℝ) : EReal) := by
  funext y
  obtain ⟨p, q, rfl⟩ : ∃ (p q : Fin 512), y = ix2 p q := ⟨y 0, y 1, eq_ix2 y⟩
  refine (Blocks.blk3_at m c t p q).trans ((HostSide.wt_v47_at m c _ _).trans ?_)
  exact ent_coe (D3 m c) hreal.d3 _ _

/-! ## One K-block's contribution, and the body's update over real blocks -/

/-- Point `n`'s contribution to the real accumulator. -/
def cRe (n : ℕ) (p q : Fin 512) : ℝ :=
  (∑ k : Fin 512, b0 m c n p k * b2 m c n k q) - ∑ k : Fin 512, b1 m c n p k * b3 m c n k q

/-- Point `n`'s contribution to the imaginary accumulator. -/
def cIm (n : ℕ) (p q : Fin 512) : ℝ :=
  (∑ k : Fin 512, b0 m c n p k * b3 m c n k q) + ∑ k : Fin 512, b1 m c n p k * b2 m c n k q

theorem step_re (hreal : RealArgs m c) (t : Fin cfg0.N) (g : S512x512.Idx → ℝ) :
    k0_pay7 (F := Ideal) (iblk m c 0 t) (iblk m c 1 t) (iblk m c 2 t) (iblk m c 3 t) (fun y => ((g y : ℝ) : EReal))
      = fun y => ((g y + cRe m c t.val (y 0) (y 1) : ℝ) : EReal) := by
  rw [blk0_real m c hreal t, blk1_real m c hreal t, blk2_real m c hreal t, blk3_real m c hreal t]
  funext y
  obtain ⟨p, q, rfl⟩ : ∃ (p q : Fin 512), y = ix2 p q := ⟨y 0, y 1, eq_ix2 y⟩
  exact PayloadAt.pay7_at (fun y => b0 m c t.val (y 0) (y 1)) (fun y => b1 m c t.val (y 0) (y 1)) (fun y => b2 m c t.val (y 0) (y 1)) (fun y => b3 m c t.val (y 0) (y 1)) g p q

theorem step_im (hreal : RealArgs m c) (t : Fin cfg0.N) (g : S512x512.Idx → ℝ) :
    k0_pay8 (F := Ideal) (iblk m c 0 t) (iblk m c 1 t) (iblk m c 2 t) (iblk m c 3 t) (fun y => ((g y : ℝ) : EReal))
      = fun y => ((g y + cIm m c t.val (y 0) (y 1) : ℝ) : EReal) := by
  rw [blk0_real m c hreal t, blk1_real m c hreal t, blk2_real m c hreal t, blk3_real m c hreal t]
  funext y
  obtain ⟨p, q, rfl⟩ : ∃ (p q : Fin 512), y = ix2 p q := ⟨y 0, y 1, eq_ix2 y⟩
  exact PayloadAt.pay8_at (fun y => b0 m c t.val (y 0) (y 1)) (fun y => b1 m c t.val (y 0) (y 1)) (fun y => b2 m c t.val (y 0) (y 1)) (fun y => b3 m c t.val (y 0) (y 1)) g p q

theorem zero_re : k0_pay1 (F := Ideal) = fun _ => ((0 : ℝ) : EReal) := funext PayloadAt.pay1_at
theorem zero_im : k0_pay2 (F := Ideal) = fun _ => ((0 : ℝ) : EReal) := funext PayloadAt.pay2_at

/-! ## The partial sums one K-block at a time -/

theorem accRe_first (n : ℕ) (h : n % 4 = 0) (y : S512x512.Idx) : (0 : ℝ) + cRe m c n (y 0) (y 1) = accRe m c n y := by
  unfold accRe reAcc cRe b0 b1 b2 b3
  rw [h, pdot_step _ _ _ _ 0, pdot_step _ _ _ _ 0, Nat.mul_zero, pdot_zero, pdot_zero]
  simp only [zero_add]

theorem accIm_first (n : ℕ) (h : n % 4 = 0) (y : S512x512.Idx) : (0 : ℝ) + cIm m c n (y 0) (y 1) = accIm m c n y := by
  unfold accIm imAcc cIm b0 b1 b2 b3
  rw [h, pdot_step _ _ _ _ 0, pdot_step _ _ _ _ 0, Nat.mul_zero, pdot_zero, pdot_zero]
  simp only [zero_add]

theorem accRe_next (n : ℕ) (h : n % 4 ≠ 0) (y : S512x512.Idx) : accRe m c (n - 1) y + cRe m c n (y 0) (y 1) = accRe m c n y := by
  have e1 : (n - 1) / 16 = n / 16 := by omega
  have e2 : ((n - 1) / 4) % 4 = (n / 4) % 4 := by omega
  have e3 : (n - 1) % 4 + 1 = n % 4 := by omega
  unfold accRe reAcc cRe b0 b1 b2 b3
  rw [e1, e2, e3, pdot_step _ _ _ _ (n % 4), pdot_step _ _ _ _ (n % 4)]
  ring

theorem accIm_next (n : ℕ) (h : n % 4 ≠ 0) (y : S512x512.Idx) : accIm m c (n - 1) y + cIm m c n (y 0) (y 1) = accIm m c n y := by
  have e1 : (n - 1) / 16 = n / 16 := by omega
  have e2 : ((n - 1) / 4) % 4 = (n / 4) % 4 := by omega
  have e3 : (n - 1) % 4 + 1 = n % 4 := by omega
  unfold accIm imAcc cIm b0 b1 b2 b3
  rw [e1, e2, e3, pdot_step _ _ _ _ (n % 4), pdot_step _ _ _ _ (n % 4)]
  ring

/-! ## The induction over the grid points -/

/-- After every grid point both accumulators hold their closed forms. -/
theorem scratch_eq (hreal : RealArgs m c) : ∀ (n : ℕ) (h : n < cfg0.N),
    (outsAt0 m c n h).2.2.1 = (fun y => ((accRe m c n y : ℝ) : EReal))
    ∧ (outsAt0 m c n h).2.2.2 = (fun y => ((accIm m c n y : ℝ) : EReal)) := by
  intro n
  induction n using Nat.strong_induction_on with
  | _ n ih =>
    intro h
    by_cases h0 : n % 4 = 0
    · have h1 : ¬n % 4 = 3 := by omega
      rw [outsAt0_A m c ⟨n, h⟩ h0 h1]
      dsimp only
      constructor
      · rw [Pieces.sout_A_0, zero_re, step_re m c hreal ⟨n, h⟩ (fun _ => 0)]
        funext y
        exact congrArg _ (accRe_first m c n h0 y)
      · rw [Pieces.sout_A_1, zero_im, step_im m c hreal ⟨n, h⟩ (fun _ => 0)]
        funext y
        exact congrArg _ (accIm_first m c n h0 y)
    · have hp := ih (n - 1) (by omega) (Nat.lt_of_le_of_lt (Nat.sub_le _ _) h)
      by_cases h1 : n % 4 = 3
      · rw [outsAt0_C m c ⟨n, h⟩ h0 h1]
        dsimp only
        constructor
        · rw [Pieces.sout_C_0, hp.1, step_re m c hreal ⟨n, h⟩ (accRe m c (n - 1))]
          funext y
          exact congrArg _ (accRe_next m c n h0 y)
        · rw [Pieces.sout_C_1, hp.2, step_im m c hreal ⟨n, h⟩ (accIm m c (n - 1))]
          funext y
          exact congrArg _ (accIm_next m c n h0 y)
      · rw [outsAt0_B m c ⟨n, h⟩ h0 h1]
        dsimp only
        constructor
        · rw [Pieces.sout_B_0, hp.1, step_re m c hreal ⟨n, h⟩ (accRe m c (n - 1))]
          funext y
          exact congrArg _ (accRe_next m c n h0 y)
        · rw [Pieces.sout_B_1, hp.2, step_im m c hreal ⟨n, h⟩ (accIm m c (n - 1))]
          funext y
          exact congrArg _ (accIm_next m c n h0 y)

/-- At a last K-block the first output block holds the finished real accumulator. -/
theorem out4_eq (hreal : RealArgs m c) (t : Fin cfg0.N) (h3 : t.val % 4 = 3) :
    (outsAt0 m c t.val t.isLt).1 = fun y => ((accRe m c t.val y : ℝ) : EReal) := by
  have h0 : ¬t.val % 4 = 0 := by omega
  have hp := scratch_eq m c hreal (t.val - 1) (Nat.lt_of_le_of_lt (Nat.sub_le _ _) t.isLt)
  rw [outsAt0_C m c t h0 h3]
  dsimp only
  rw [Pieces.out_C_4, hp.1, step_re m c hreal t (accRe m c (t.val - 1))]
  funext y
  exact congrArg _ (accRe_next m c t.val h0 y)

/-- At a last K-block the second output block holds the finished imaginary accumulator. -/
theorem out5_eq (hreal : RealArgs m c) (t : Fin cfg0.N) (h3 : t.val % 4 = 3) :
    (outsAt0 m c t.val t.isLt).2.1 = fun y => ((accIm m c t.val y : ℝ) : EReal) := by
  have h0 : ¬t.val % 4 = 0 := by omega
  have hp := scratch_eq m c hreal (t.val - 1) (Nat.lt_of_le_of_lt (Nat.sub_le _ _) t.isLt)
  rw [outsAt0_C m c t h0 h3]
  dsimp only
  rw [Pieces.out_C_5, hp.2, step_im m c hreal t (accIm m c (t.val - 1))]
  funext y
  exact congrArg _ (accIm_next m c t.val h0 y)

end Cert.KernelIdeal.Invariant

end
-- ==== Proof.KernelValue.lean ====
/-
  The kernel's two result arrays after its run.

  A result array is written back only at the last K-block of each (row block, output-feature block) pair, and those
  256/4 = 64 blocks tile it; the block written back at such a point is the finished accumulator, whose entry `(p, q)`
  is the full sum over the 2048 input features at row `512·(n/16) + p` and output feature `512·((n/4)%4) + q` — the
  specification's entry at that index.
-/
import proofs.«142256_j73555609911440_1_alg».proof.Proof.Invariant
import proofs.«142256_j73555609911440_1_alg».proof.Proof.Gen.KernelIdeal.Value
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.Spec Cert.KernelIdeal.Acc

variable (m : (ℓ : Loc nD τ sig) → Buf (Elt Ideal) ℓ) (ρ : Dev nD → PrngReg)

/-- The printed index map of the first result window, decided over the grid: point `t` writes block
    `(t / 16, (t / 4) % 4)`. -/
theorem idx4 : ∀ t : Fin cfg0.N, win0_4.index t 0 = t.val / 16 ∧ win0_4.index t 1 = (t.val / 4) % 4 :=
  (by decide +kernel : ∀ t : Fin grid0.N, win0_4.index t 0 = t.val / 16 ∧ win0_4.index t 1 = (t.val / 4) % 4)

/-- The second result window's index map is the same. -/
theorem idx5 : ∀ t : Fin cfg0.N, win0_5.index t 0 = t.val / 16 ∧ win0_5.index t 1 = (t.val / 4) % 4 :=
  (by decide +kernel : ∀ t : Fin grid0.N, win0_5.index t 0 = t.val / 16 ∧ win0_5.index t 1 = (t.val / 4) % 4)

/-! ## The first result array -/

/-- What a last-K-block point writes back is its block of the real part: at `t % 4 = 3` the accumulator's bound
    `512·(t % 4 + 1)` is all `2048` input features, and entry `y` of block `(t / 16, (t / 4) % 4)` sits at the array
    index `(512·(t / 16) + y₀, 512·((t / 4) % 4) + y₁)`. -/
theorem flushed_eq4 (c : Dev nD) (hreal : RealArgs m c) (t : Fin cfg0.N) (hf : (cfg0.win 4).flush t = true) :
    (dats m 0 c).flushed 4 t
      = ((cfg0.win 4).blk t).view.read (Elt Ideal) (outRe (X0 m c) (X1 m c) (D2 m c) (D3 m c)) := by
  have h3 := (flush0_4 t).mp hf
  rw [Value.flushed4, Invariant.out4_eq m c hreal t h3]
  funext y
  show ((accRe m c t.val (win0_4.xinj (grid0.coords t) y) : ℝ) : EReal)
    = outRe _ _ _ _ (((cfg0.win 4).blk t).view.emb y)
  have e0 : ((((cfg0.win 4).blk t).view.emb y) 0).val = 512 * (t.val / 16) + (y 0).val := by
    show win0_4.index t 0 * 512 + 1 * (y 0).val = _
    rw [(idx4 t).1]; omega
  have e1 : ((((cfg0.win 4).blk t).view.emb y) 1).val = 512 * ((t.val / 4) % 4) + (y 1).val := by
    show win0_4.index t 1 * 512 + 1 * (y 1).val = _
    rw [(idx4 t).2]; omega
  unfold accRe outRe
  dsimp only
  rw [e0, e1, h3]

/-- An index of the array is in point `t`'s block iff each coordinate is in the block's range on its axis. -/
theorem mem_blk4 (t : Fin cfg0.N) (i : S8192x2048.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v48_0).slice (win0_4.rect t)).set ↔ _
  rw [View.set_slice_whole, Rect.mem_set_unit]
  exact Iff.rfl

/-- The 64 written blocks tile the array: index `i` lies in the block of the point
    `16·(i₀ / 512) + 4·(i₁ / 512) + 3`. -/
theorem cover4 (i : S8192x2048.Idx) :
    ∃ t : Fin cfg0.N, (cfg0.win 4).flush t = true ∧ i ∈ ((cfg0.win 4).blk t).view.set := by
  have hN : cfg0.N = 256 := N_0
  have hi0 : (i 0).val < 8192 := (i 0).isLt
  have hi1 : (i 1).val < 2048 := (i 1).isLt
  obtain ⟨t, ht⟩ : ∃ t : Fin cfg0.N, t.val = 16 * ((i 0).val / 512) + 4 * ((i 1).val / 512) + 3 :=
    ⟨⟨16 * ((i 0).val / 512) + 4 * ((i 1).val / 512) + 3, by omega⟩, rfl⟩
  refine ⟨t, (flush0_4 t).mpr (by omega), ?_⟩
  rw [mem_blk4]
  obtain ⟨q0, q1⟩ := idx4 t
  intro a
  match a with
  | ⟨0, _⟩ =>
    show win0_4.index t 0 * 512 ≤ (i 0).val ∧ (i 0).val < win0_4.index t 0 * 512 + 512
    omega
  | ⟨1, _⟩ =>
    show win0_4.index t 1 * 512 ≤ (i 1).val ∧ (i 1).val < win0_4.index t 1 * 512 + 512
    omega

/-- The first result array ends holding the real part. -/
theorem final4 (c : Dev nD) (hreal : RealArgs m c) :
    (dats m 0 c).arrAt 4 cfg0.N = outRe (X0 m c) (X1 m c) (D2 m c) (D3 m c) :=
  (dats m 0 c).arrAt_eq_of_cover 4 _ (fun t hf => flushed_eq4 m c hreal t hf) cover4

/-! ## The second result array -/

/-- What a last-K-block point writes back is its block of the imaginary part. -/
theorem flushed_eq5 (c : Dev nD) (hreal : RealArgs m c) (t : Fin cfg0.N) (hf : (cfg0.win 5).flush t = true) :
    (dats m 0 c).flushed 5 t
      = ((cfg0.win 5).blk t).view.read (Elt Ideal) (outIm (X0 m c) (X1 m c) (D2 m c) (D3 m c)) := by
  have h3 := (flush0_5 t).mp hf
  rw [Value.flushed5, Invariant.out5_eq m c hreal t h3]
  funext y
  show ((accIm m c t.val (win0_5.xinj (grid0.coords t) y) : ℝ) : EReal)
    = outIm _ _ _ _ (((cfg0.win 5).blk t).view.emb y)
  have e0 : ((((cfg0.win 5).blk t).view.emb y) 0).val = 512 * (t.val / 16) + (y 0).val := by
    show win0_5.index t 0 * 512 + 1 * (y 0).val = _
    rw [(idx5 t).1]; omega
  have e1 : ((((cfg0.win 5).blk t).view.emb y) 1).val = 512 * ((t.val / 4) % 4) + (y 1).val := by
    show win0_5.index t 1 * 512 + 1 * (y 1).val = _
    rw [(idx5 t).2]; omega
  unfold accIm outIm
  dsimp only
  rw [e0, e1, h3]

/-- An index of the array is in point `t`'s block iff each coordinate is in the block's range on its axis. -/
theorem mem_blk5 (t : Fin cfg0.N) (i : S8192x2048.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v48_1).slice (win0_5.rect t)).set ↔ _
  rw [View.set_slice_whole, Rect.mem_set_unit]
  exact Iff.rfl

/-- The 64 written blocks tile the second array likewise. -/
theorem cover5 (i : S8192x2048.Idx) :
    ∃ t : Fin cfg0.N, (cfg0.win 5).flush t = true ∧ i ∈ ((cfg0.win 5).blk t).view.set := by
  have hN : cfg0.N = 256 := N_0
  have hi0 : (i 0).val < 8192 := (i 0).isLt
  have hi1 : (i 1).val < 2048 := (i 1).isLt
  obtain ⟨t, ht⟩ : ∃ t : Fin cfg0.N, t.val = 16 * ((i 0).val / 512) + 4 * ((i 1).val / 512) + 3 :=
    ⟨⟨16 * ((i 0).val / 512) + 4 * ((i 1).val / 512) + 3, by omega⟩, rfl⟩
  refine ⟨t, (flush0_5 t).mpr (by omega), ?_⟩
  rw [mem_blk5]
  obtain ⟨q0, q1⟩ := idx5 t
  intro a
  match a with
  | ⟨0, _⟩ =>
    show win0_5.index t 0 * 512 ≤ (i 0).val ∧ (i 0).val < win0_5.index t 0 * 512 + 512
    omega
  | ⟨1, _⟩ =>
    show win0_5.index t 1 * 512 ≤ (i 1).val ∧ (i 1).val < win0_5.index t 1 * 512 + 512
    omega

/-- The second result array ends holding the imaginary part. -/
theorem final5 (c : Dev nD) (hreal : RealArgs m c) :
    (dats m 0 c).arrAt 5 cfg0.N = outIm (X0 m c) (X1 m c) (D2 m c) (D3 m c) :=
  (dats m 0 c).arrAt_eq_of_cover 5 _ (fun t hf => flushed_eq5 m c hreal t hf) cover5

/-! ## The run, read -/

/-- The kernel's run with both results named and the arguments unchanged. -/
theorem run (hreal : ∀ c : Dev nD, RealArgs m c) :
    θ_run defs (onTc (τ := τ) (main (F := Ideal))) ⟨m, fun _ => 0, ρ⟩ fun r => ∀ c : Dev nD,
      r.2.mem ((c : Thread nD τ).loc main_v48_0) = outRe (X0 m c) (X1 m c) (D2 m c) (D3 m c)
      ∧ r.2.mem ((c : Thread nD τ).loc main_v48_1) = outIm (X0 m c) (X1 m c) (D2 m c) (D3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
      obtain ⟨h4, h5, k0, k1, k2, k3⟩ := h c
      exact ⟨h4.trans (final4 m c (hreal c)), h5.trans (final5 m c (hreal c)), k0, k1, k2, k3⟩)
    (Value.run_blocks (F := Ideal) m ρ)

end Cert.KernelIdeal.KernelValue

end
-- ==== Proof.RefValue.lean ====
/-
  The reference's two results are the specification's: its straight-through weight `w + (dq - w)` is the quantized
  weight `dq` (the weight is real), its transposes swap the weight's coordinates, and each `dot_general` is the sum over
  the 2048 input features.
-/
import proofs.«142256_j73555609911440_1_alg».proof.Proof.Gen.ReferenceIdeal.Read
import proofs.«142256_j73555609911440_1_alg».proof.Proof.Spec
import proofs.«142256_j73555609911440_1_alg».proof.Proof.RealSums

noncomputable section

open scoped BigOperators

namespace Cert.RefValue

open Idealize.ShloMosaic Idealize.ShloMosaic.ValueIdx Cert.Spec

open Cert.ReferenceIdeal.Read in
/-- The reference's quantizer term on the first weight matrix is the specification's quantizer: the same operations on
    the same literals. -/
theorem quant2_eq (x2 : FVec Ideal SW .f32) : val_main_v22 (F := Ideal) x2 = quant x2 := rfl

open Cert.ReferenceIdeal.Read in
/-- The same for the second weight matrix. -/
theorem quant3_eq (x3 : FVec Ideal SW .f32) : val_main_v45 (F := Ideal) x3 = quant x3 := rfl

open Cert.ReferenceIdeal.Read in
/-- The straight-through weight `w + (quant w - w)` is `quant w`, the weight's entries being real numbers. -/
theorem ste2 (x2 : FVec Ideal SW .f32) (h2 : IsReal x2) (j : SW.Idx) :
    val_main_v47 (F := Ideal) x2 j = quant x2 j := by
  rw [val_main_v47_apply, val_main_v46_apply, quant2_eq]
  have h := Cert.RealSums.coe_add_sub_cancel (x2 j).toReal (quant x2 j)
  rw [← h2 j] at h
  exact h

open Cert.ReferenceIdeal.Read in
/-- The same for the second weight matrix. -/
theorem ste3 (x3 : FVec Ideal SW .f32) (h3 : IsReal x3) (j : SW.Idx) :
    val_main_v49 (F := Ideal) x3 j = quant x3 j := by
  rw [val_main_v49_apply, val_main_v48_apply, quant3_eq]
  have h := Cert.RealSums.coe_add_sub_cancel (x3 j).toReal (quant x3 j)
  rw [← h3 j] at h
  exact h

/-- Row `R` of a real input against row `C` of a real weight, summed over the 2048 input features, is the image of
    the real sum `pdot`. -/
theorem dot_eq (x : FVec Ideal SX .f32) (d : FVec Ideal SW .f32) (hx : IsReal x) (hd : IsReal d) (i : SX.Idx) :
    ∑ k : Fin 2048, x (ix2 (i 0) k) * d (ix2 (i 1) k) = ((pdot x d (i 0).val (i 1).val 2048 : ℝ) : EReal) := by
  unfold pdot
  rw [← Cert.RealSums.sum_fin_eq_range 2048 (fun K => ent x (i 0).val K * ent d (i 1).val K),
    ← Cert.RealSums.sum_coe_mul_coe Finset.univ (fun k : Fin 2048 => ent x (i 0).val k.val)
      (fun k : Fin 2048 => ent d (i 1).val k.val)]
  refine Finset.sum_congr rfl fun k _ => ?_
  have e1 : ent x (i 0).val k.val = (x (ix2 (i 0) k)).toReal := by
    unfold ent; rw [dif_pos ⟨(i 0).isLt, k.isLt⟩]; rfl
  have e2 : ent d (i 1).val k.val = (d (ix2 (i 1) k)).toReal := by
    unfold ent; rw [dif_pos ⟨(i 1).isLt, k.isLt⟩]; rfl
  rw [e1, e2]
  exact congrArg₂ (fun a b : EReal => a * b) (hx _) (hd _)

open Cert.ReferenceIdeal.Read in
/-- The reference's `dot_general` of an input against the transposed straight-through first weight is the image of
    the real sum against the quantized weight. -/
theorem dotA (x : FVec Ideal SX .f32) (x2 : FVec Ideal SW .f32) (hx : IsReal x) (h2 : IsReal x2)
    (hq2 : IsReal (quant x2)) (i : SX.Idx) :
    ∑ k : Fin 2048, x (lidx_main_v51 i k) * val_main_v50 (F := Ideal) x2 (ridx_main_v51 i k)
      = ((pdot x (quant x2) (i 0).val (i 1).val 2048 : ℝ) : EReal) := by
  rw [← dot_eq x (quant x2) hx hq2 i]
  refine Finset.sum_congr rfl fun k _ => ?_
  rw [val_main_v50_apply, ste2 x2 h2]
  have el : lidx_main_v51 i k = ix2 (i 0) k :=
    funext fun a => by match a with | ⟨0, _⟩ => rfl | ⟨1, _⟩ => rfl
  have er : idx_main_v50 (ridx_main_v51 i k) = ix2 (i 1) k :=
    funext fun a => by match a with | ⟨0, _⟩ => rfl | ⟨1, _⟩ => rfl
  rw [el, er]
  rfl

open Cert.ReferenceIdeal.Read in
/-- The same against the transposed straight-through second weight. -/
theorem dotB (x : FVec Ideal SX .f32) (x3 : FVec Ideal SW .f32) (hx : IsReal x) (h3 : IsReal x3)
    (hq3 : IsReal (quant x3)) (i : SX.Idx) :
    ∑ k : Fin 2048, x (lidx_main_v53 i k) * val_main_v52 (F := Ideal) x3 (ridx_main_v53 i k)
      = ((pdot x (quant x3) (i 0).val (i 1).val 2048 : ℝ) : EReal) := by
  rw [← dot_eq x (quant x3) hx hq3 i]
  refine Finset.sum_congr rfl fun k _ => ?_
  rw [val_main_v52_apply, ste3 x3 h3]
  have el : lidx_main_v53 i k = ix2 (i 0) k :=
    funext fun a => by match a with | ⟨0, _⟩ => rfl | ⟨1, _⟩ => rfl
  have er : idx_main_v52 (ridx_main_v53 i k) = ix2 (i 1) k :=
    funext fun a => by match a with | ⟨0, _⟩ => rfl | ⟨1, _⟩ => rfl
  rw [el, er]
  rfl

open Cert.ReferenceIdeal.Read in
/-- The second result's `dot_general` of an input against the transposed straight-through second weight. -/
theorem dotC (x : FVec Ideal SX .f32) (x3 : FVec Ideal SW .f32) (hx : IsReal x) (h3 : IsReal x3)
    (hq3 : IsReal (quant x3)) (i : SX.Idx) :
    ∑ k : Fin 2048, x (lidx_main_v56 i k) * val_main_v55 (F := Ideal) x3 (ridx_main_v56 i k)
      = ((pdot x (quant x3) (i 0).val (i 1).val 2048 : ℝ) : EReal) := by
  rw [← dot_eq x (quant x3) hx hq3 i]
  refine Finset.sum_congr rfl fun k _ => ?_
  rw [val_main_v55_apply, ste3 x3 h3]
  have el : lidx_main_v56 i k = ix2 (i 0) k :=
    funext fun a => by match a with | ⟨0, _⟩ => rfl | ⟨1, _⟩ => rfl
  have er : idx_main_v55 (ridx_main_v56 i k) = ix2 (i 1) k :=
    funext fun a => by match a with | ⟨0, _⟩ => rfl | ⟨1, _⟩ => rfl
  rw [el, er]
  rfl

open Cert.ReferenceIdeal.Read in
/-- The second result's `dot_general` of an input against the transposed straight-through first weight. -/
theorem dotD (x : FVec Ideal SX .f32) (x2 : FVec Ideal SW .f32) (hx : IsReal x) (h2 : IsReal x2)
    (hq2 : IsReal (quant x2)) (i : SX.Idx) :
    ∑ k : Fin 2048, x (lidx_main_v58 i k) * val_main_v57 (F := Ideal) x2 (ridx_main_v58 i k)
      = ((pdot x (quant x2) (i 0).val (i 1).val 2048 : ℝ) : EReal) := by
  rw [← dot_eq x (quant x2) hx hq2 i]
  refine Finset.sum_congr rfl fun k _ => ?_
  rw [val_main_v57_apply, ste2 x2 h2]
  have el : lidx_main_v58 i k = ix2 (i 0) k :=
    funext fun a => by match a with | ⟨0, _⟩ => rfl | ⟨1, _⟩ => rfl
  have er : idx_main_v57 (ridx_main_v58 i k) = ix2 (i 1) k :=
    funext fun a => by match a with | ⟨0, _⟩ => rfl | ⟨1, _⟩ => rfl
  rw [el, er]
  rfl

open Cert.ReferenceIdeal.Read in
/-- The reference's first result is the real part. -/
theorem ref_re (x0 x1 : FVec Ideal SX .f32) (x2 x3 : FVec Ideal SW .f32)
    (h0 : IsReal x0) (h1 : IsReal x1) (h2 : IsReal x2) (h3 : IsReal x3)
    (hq2 : IsReal (quant x2)) (hq3 : IsReal (quant x3)) :
    Cert.ReferenceIdeal.Read.val_main_v54 (F := Ideal) x0 x1 x2 x3 = outRe x0 x1 (quant x2) (quant x3) := by
  funext i
  rw [val_main_v54_apply, val_main_v51_apply, val_main_v53_apply, dotA x0 x2 h0 h2 hq2 i, dotB x1 x3 h1 h3 hq3 i]
  unfold outRe reAcc
  rw [EReal.coe_sub]
  rfl

open Cert.ReferenceIdeal.Read in
/-- The reference's second result is the imaginary part. -/
theorem ref_im (x0 x1 : FVec Ideal SX .f32) (x2 x3 : FVec Ideal SW .f32)
    (h0 : IsReal x0) (h1 : IsReal x1) (h2 : IsReal x2) (h3 : IsReal x3)
    (hq2 : IsReal (quant x2)) (hq3 : IsReal (quant x3)) :
    Cert.ReferenceIdeal.Read.val_main_v59 (F := Ideal) x0 x1 x2 x3 = outIm x0 x1 (quant x2) (quant x3) := by
  funext i
  rw [val_main_v59_apply, val_main_v56_apply, val_main_v58_apply, dotC x0 x3 h0 h3 hq3 i, dotD x1 x2 h1 h2 hq2 i]
  unfold outIm imAcc
  rw [EReal.coe_add]
  rfl

end Cert.RefValue

end
-- ==== Proof.QuantConsts.lean ====
/-
  The float literals of the quantizer that the finiteness argument evaluates: the clip bounds `-1` and `1`, the
  element count `4194304 = 2048 · 2048` of the mean, and the floor `10⁻⁶` of the scale (of which only "it is a real
  number" is used). Every other literal of the two programs is the same word on both sides and is never evaluated.
-/
import Idealize.ShloMosaic.PureOps.Ideal

noncomputable section

namespace Cert.QuantConsts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = ((1 : ℝ) : EReal) := by
  simp [Ideal.ofBits, Ideal.ieee, -EReal.coe_mul]; norm_num

/-- `-1.0` denotes `-1`. -/
theorem ofBits_neg_one : Ideal.ofBits .f32 0xBF800000#32 = ((-1 : ℝ) : EReal) := by
  simp [Ideal.ofBits, Ideal.ieee, -EReal.coe_mul]; norm_num

/-- `4194304.0`, the number of entries of a weight matrix, denotes the real `4194304`. -/
theorem ofBits_count : Ideal.ofBits .f32 0x4A800000#32 = ((4194304 : ℝ) : EReal) := by
  simp [Ideal.ofBits, Ideal.ieee, -EReal.coe_mul]; norm_num

/-- The scale's floor (the pattern of `1e-6`) denotes some real number. -/
theorem ofBits_floor_real : ∃ r : ℝ, Ideal.ofBits .f32 0x358637BD#32 = (r : EReal) := by
  refine ⟨(8796093 : ℝ) * (2 : ℝ) ^ (-43 : ℤ), ?_⟩
  simp [Ideal.ofBits, Ideal.ieee, -EReal.coe_mul]

end Cert.QuantConsts

end
-- ==== Proof.QuantReal.lean ====
/-
  The quantized weight of a real matrix is a real matrix: its entry is a value clipped to [-1, 1], hence real, times the
  scale, and the scale is the larger of the mean of finitely many real absolute values and a real floor.
-/
import proofs.«142256_j73555609911440_1_alg».proof.Proof.Spec
import proofs.«142256_j73555609911440_1_alg».proof.Proof.RealSums
import proofs.«142256_j73555609911440_1_alg».proof.Proof.QuantConsts
import Idealize.ShloMosaic.PureOps.Ideal.Laws
import Idealize.ShloMosaic.Lib.ValueIdx

noncomputable section

open scoped BigOperators

namespace Cert.Spec

open Idealize.ShloMosaic Idealize.ShloMosaic.ValueIdx

/-- An extended real between two reals is a real. -/
theorem eq_coe_toReal_of_bounds {a : EReal} {lo hi : ℝ} (h1 : (lo : EReal) ≤ a) (h2 : a ≤ (hi : EReal)) :
    a = ((a.toReal : ℝ) : EReal) := by
  refine (EReal.coe_toReal ?_ ?_).symm
  · rintro rfl
    exact absurd h2 (not_le.mpr (EReal.coe_lt_top hi))
  · rintro rfl
    exact absurd h1 (not_le.mpr (EReal.bot_lt_coe lo))

/-- The image of the larger of two reals is the larger of the images. -/
theorem coe_max (a b : ℝ) : ((max a b : ℝ) : EReal) = max (a : EReal) (b : EReal) :=
  EReal.coe_strictMono.monotone.map_max

/-- The absolute value of a real, taken in the extended reals, is the real absolute value. -/
theorem max_neg_coe (r : ℝ) : max (r : EReal) (-(r : EReal)) = ((max r (-r) : ℝ) : EReal) := by
  rw [← EReal.coe_neg, coe_max]

/-- The scale read at its index: the larger of the mean of the absolute values and the floor. -/
theorem scale_apply (w : FVec Ideal SW .f32) (j : S0.Idx) :
    scale w j = max (Ideal.div (Ideal.ofBits .f32 0x00000000#32 + ∑ i : SW.Idx, max (w i) (-(w i)))
      (Ideal.ofBits .f32 0x4A800000#32)) (Ideal.ofBits .f32 0x358637BD#32) := by
  unfold scale
  rw [maximumf_apply]
  show max (Ideal.div (Ideal.hostReduceAdd hr (Host.absf w) _ j) _) _ = _
  rw [Ideal.hostReduceAdd_total hr (fun b => b.elim0)]
  rfl

/-- The scale of a real matrix is a real number. -/
theorem scale_real (w : FVec Ideal SW .f32) (hw : IsReal w) (j : S0.Idx) : ∃ r : ℝ, scale w j = (r : EReal) := by
  obtain ⟨f, hf⟩ := Cert.QuantConsts.ofBits_floor_real
  have hsum : ∑ i : SW.Idx, max (w i) (-(w i)) = ((∑ i : SW.Idx, max (w i).toReal (-(w i).toReal) : ℝ) : EReal) := by
    rw [Cert.RealSums.coe_sum]
    refine Finset.sum_congr rfl fun i _ => ?_
    rw [← max_neg_coe, ← hw i]
  refine ⟨max ((∑ i : SW.Idx, max (w i).toReal (-(w i).toReal)) * (1 / 4194304)) f, ?_⟩
  rw [scale_apply, hsum, Cert.QuantConsts.ofBits_zero, zero_add, Cert.QuantConsts.ofBits_count,
    Ideal.div_coe (by norm_num), hf, ← EReal.coe_mul, coe_max]

/-- Every entry of the quantized weight of a real matrix is a real number. -/
theorem quant_isReal (w : FVec Ideal SW .f32) (hw : IsReal w) : IsReal (quant w) := by
  intro i
  unfold quant
  rw [mulf_apply]
  obtain ⟨s, hs⟩ := scale_real w hw (fun a => a.elim0)
  have hsc : broadcastInDim SW ![] hb (scale w) i = (s : EReal) := by
    rw [← hs]; unfold broadcastInDim; congr 1; funext a; exact a.elim0
  have hc : clipped w i = ((clipped w i).toReal : EReal) := by
    refine eq_coe_toReal_of_bounds (lo := -1) (hi := 1) ?_ ?_
    · show _ ≤ min (Ideal.ofBits .f32 0x3F800000#32) (max (Ideal.ofBits .f32 0xBF800000#32) (nonzero w i))
      rw [Cert.QuantConsts.ofBits_one, Cert.QuantConsts.ofBits_neg_one]
      exact le_min (by exact_mod_cast (by norm_num : (-1 : ℝ) ≤ 1)) (le_max_left _ _)
    · show min (Ideal.ofBits .f32 0x3F800000#32) (max (Ideal.ofBits .f32 0xBF800000#32) (nonzero w i)) ≤ _
      rw [Cert.QuantConsts.ofBits_one]
      exact min_le_left _ _
  rw [hsc, hc, ← EReal.coe_mul, EReal.toReal_coe]

end Cert.Spec

end
-- ==== Proof.FiniteInputs.lean ====
/-
  The precondition read back: where every input's absolute value is below +infinity at every index, every entry of
  every input is a real number.
-/
import proofs.«142256_j73555609911440_1_alg».proof.Pre_finite_inputs
import proofs.«142256_j73555609911440_1_alg».proof.Proof.Spec
import Idealize.ShloMosaic.Lib.ReduceAll
import Idealize.ShloMosaic.Lib.ValueIdx

noncomputable section

namespace Cert.FiniteInputs

open Idealize.ShloMosaic Idealize.ShloMosaic.ValueIdx Cert.Spec

/-- The scalar shape has one index. -/
instance : Subsingleton Cert.Pre_finite_inputs.S_.Idx := ⟨fun a b => funext fun d => d.elim0⟩

/-- The pattern of `+∞` denotes the top element. -/
theorem ofBits_inf : Ideal.ofBits .f32 0x7F800000#32 = ⊤ := by
  simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : x = ((x.toReal : ℝ) : EReal) := by
  rw [ofBits_inf] at h
  induction x using EReal.rec with
  | bot => simp [Ideal.cmp] at h
  | top => simp [Ideal.cmp] at h
  | coe r => simp

/-- An array whose every absolute value compares below `+∞` is real. -/
theorem isReal_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (e : Host.reduce IntOp.andi
      (cmpf .olt (Host.absf a) (broadcastInDim s ![] hb (constant Cert.Pre_finite_inputs.S_ .f32 0x7F800000#32)))
      (constantI Cert.Pre_finite_inputs.S_ 1 1#1) hr hu ValueIdx.ix0 = 1#1) : IsReal a := by
  intro i
  have hi := Host.reduce_andi_all _ _ hr hu _ e i
  exact real_of_abs_lt_inf (a i) hi

/-- Under the precondition all four argument arrays are real. -/
theorem isReal_of_pre [Cert.Pre_finite_inputs.Facts] (a0 a1 : FVec Ideal SX .f32) (a2 a3 : FVec Ideal SW .f32)
    (h : Cert.Pre_finite_inputs.fn (F := Ideal) a0 a1 a2 a3 = fun _ => 1#1) :
    IsReal a0 ∧ IsReal a1 ∧ IsReal a2 ∧ IsReal a3 := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨isReal_of_all _ _ _ a0 h0', isReal_of_all _ _ _ a1 h1, isReal_of_all _ _ _ a2 h2, isReal_of_all _ _ _ a3 h3⟩

end Cert.FiniteInputs

end
-- ==== Proof.lean ====
/-
  The complex-valued linear layer with four-valued quantized weights: the kernel against its reference.

  Both programs quantize the two weight matrices by the same host operations. The kernel then transposes the quantized
  weights and runs one grid of 16 × 4 × 4 points: for each block of 512 rows and 512 output features it walks the four
  blocks of 512 input features, accumulating `xr·wr − xi·wi` and `xr·wi + xi·wr` in two scratch blocks (zeroed at the first
  K-block) and copying them to the two results at the last. The reference forms the straight-through weight
  `w + (dq − w)`, transposes it, and takes four whole matrix products, one difference and one sum.

  Over the extended reals the two agree because every number involved is real: the inputs by the precondition, the
  quantized weights because a value clipped to [−1, 1] times a finite scale is finite. Then `w + (dq − w)` is `dq`, a change
  of float format is the identity, and the kernel's four partial sums of differences are the difference of the two whole
  sums. The precondition is used exactly there.

  The three frames are the generated ones (the reference's is its generated run with the results dropped); the
  idealization rewrote nothing, so its conjunct is `True`.
-/
import proofs.«142256_j73555609911440_1_alg».proof.Defs
import proofs.«142256_j73555609911440_1_alg».proof.Proof.Gen.Kernel
import proofs.«142256_j73555609911440_1_alg».proof.Proof.Gen.Kernel.Skeleton
import proofs.«142256_j73555609911440_1_alg».proof.Proof.Gen.Kernel.Launch
import proofs.«142256_j73555609911440_1_alg».proof.Proof.Gen.Kernel.Points
import proofs.«142256_j73555609911440_1_alg».proof.Proof.Gen.Kernel.Frame
import proofs.«142256_j73555609911440_1_alg».proof.Proof.Gen.KernelIdeal
import proofs.«142256_j73555609911440_1_alg».proof.Proof.Gen.KernelIdeal.Skeleton
import proofs.«142256_j73555609911440_1_alg».proof.Proof.Gen.KernelIdeal.Launch
import proofs.«142256_j73555609911440_1_alg».proof.Proof.Gen.KernelIdeal.Points
import proofs.«142256_j73555609911440_1_alg».proof.Proof.Gen.KernelIdeal.Frame
import proofs.«142256_j73555609911440_1_alg».proof.Proof.Gen.ReferenceIdeal
import proofs.«142256_j73555609911440_1_alg».proof.Proof.Gen.Pre_finite_inputs
import proofs.«142256_j73555609911440_1_alg».proof.Proof.Gen.KernelIdeal.Value
import proofs.«142256_j73555609911440_1_alg».proof.Proof.Gen.ReferenceIdeal.Run
import proofs.«142256_j73555609911440_1_alg».proof.Proof.Gen.ReferenceIdeal.Read
import proofs.«142256_j73555609911440_1_alg».proof.Proof.KernelValue
import proofs.«142256_j73555609911440_1_alg».proof.Proof.RefValue
import proofs.«142256_j73555609911440_1_alg».proof.Proof.QuantReal
import proofs.«142256_j73555609911440_1_alg».proof.Proof.FiniteInputs
import Idealize.ShloMosaic.Adequacy
import Idealize.ShloMosaic.Init

noncomputable section

namespace Cert.Proof

open Idealize.ShloMosaic Idealize.SL.Sem Cert.Spec Cert.KernelIdeal.Acc

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Under the precondition the two inputs and the two quantized weights are real. -/
theorem realArgs (m : (ℓ : Loc Cert.KernelIdeal.nD Cert.KernelIdeal.τ Cert.KernelIdeal.sig) → Buf (Elt Ideal) ℓ)
    (hpre : Cert.Pre_KernelIdeal m) (c : Dev Cert.KernelIdeal.nD) : RealArgs m c := by
  obtain ⟨h0, h1, h2, h3⟩ := Cert.FiniteInputs.isReal_of_pre _ _ _ _ (hpre c)
  exact ⟨h0, h1, quant_isReal _ h2, quant_isReal _ h3⟩

/-- Both programs end with the specification's real and imaginary parts of arguments that agree. -/
theorem algebraic : Cert.algebraic_KernelIdeal_ReferenceIdeal := by
  intro m ρ m' ρ' hpre hagree
  have hreal := realArgs m hpre
  refine ⟨fun c => outRe (X0 m c) (X1 m c) (D2 m c) (D3 m c), fun c => outIm (X0 m c) (X1 m c) (D2 m c) (D3 m c),
    Cert.KernelIdeal.KernelValue.run m ρ hreal, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3⟩ := Cert.FiniteInputs.isReal_of_pre _ _ _ _ (hpre c)
    rw [Cert.ReferenceIdeal.Read.val_main_v54_eq, (hagree c).1, (hagree c).2.1, (hagree c).2.2.1, (hagree c).2.2.2]
    exact Cert.RefValue.ref_re _ _ _ _ h0 h1 h2 h3 (hreal c).d2 (hreal c).d3
  · obtain ⟨h0, h1, h2, h3⟩ := Cert.FiniteInputs.isReal_of_pre _ _ _ _ (hpre c)
    rw [Cert.ReferenceIdeal.Read.val_main_v59_eq, (hagree c).1, (hagree c).2.1, (hagree c).2.2.1, (hagree c).2.2.2]
    exact Cert.RefValue.ref_im _ _ _ _ h0 h1 h2 h3 (hreal c).d2 (hreal c).d3

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
